-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S128x4096 : Shape := ⟨2, ![128, 4096]⟩
abbrev S4096x128 : Shape := ⟨2, ![4096, 128]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S128x4096 : S_.BroadcastsInDim S128x4096 (![] : Fin 0 → Fin S128x4096.rank)
  reducesTo_S128x4096_S_d0_1 : S128x4096.ReducesTo [0, 1] S_
  bcast_S_S4096x128 : S_.BroadcastsInDim S4096x128 (![] : Fin 0 → Fin S4096x128.rank)
  reducesTo_S4096x128_S_d0_1 : S4096x128.ReducesTo [0, 1] S_

variable [Facts]

def fn {F : FTy → Type} [FloatOps F] (main_arg0 : FVec F S4x4096x4096 .f32) (main_arg1 : FVec F S128x4096 .f32) (main_arg2 : FVec F S4096x128 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S128x4096 .f32 := Host.absf main_arg1
  let main_cst_0 : FVec F S_ .f32 := constant S_ .f32 0x7F800000#32
  let main_v5 : FVec F S128x4096 .f32 := broadcastInDim S128x4096 ![] bcast_S_S128x4096 main_cst_0
  let main_v6 : IVec S128x4096 1 := cmpf .olt main_v4 main_v5
  let main_c_1 : IVec S_ 1 := constantI S_ 1 1#1
  let main_v7 : IVec S_ 1 := (fun x v => Host.reduce IntOp.andi x v reducesTo_S128x4096_S_d0_1 h_S_) main_v6 main_c_1
  let main_v8 : IVec S_ 1 := andi main_v3 main_v7
  let main_v9 : FVec F S4096x128 .f32 := Host.absf main_arg2
  let main_cst_2 : FVec F S_ .f32 := constant S_ .f32 0x7F800000#32
  let main_v10 : FVec F S4096x128 .f32 := broadcastInDim S4096x128 ![] bcast_S_S4096x128 main_cst_2
  let main_v11 : IVec S4096x128 1 := cmpf .olt main_v9 main_v10
  let main_c_3 : IVec S_ 1 := constantI S_ 1 1#1
  let main_v12 : IVec S_ 1 := (fun x v => Host.reduce IntOp.andi x v reducesTo_S4096x128_S_d0_1 h_S_) main_v11 main_c_3
  let main_v13 : IVec S_ 1 := andi main_v8 main_v12
  main_v13
-- ==== Kernel.lean ====
abbrev S4x4096x4096 : Shape := ⟨3, ![4, 4096, 4096]⟩
abbrev S128x4096 : Shape := ⟨2, ![128, 4096]⟩
abbrev S4096x128 : Shape := ⟨2, ![4096, 128]⟩
abbrev S16384x4096 : Shape := ⟨2, ![16384, 4096]⟩
abbrev S256x4096 : Shape := ⟨2, ![256, 4096]⟩
abbrev S256 : Shape := ⟨1, ![256]⟩
abbrev S256x1 : Shape := ⟨2, ![256, 1]⟩
abbrev S256x128 : Shape := ⟨2, ![256, 128]⟩

abbrev nBuf : Space → Nat
  | .hbm => 8
  | .vmem => 6
  | .smem => 0
  | _ => 0

abbrev bufTy : (tb : Table) → Fin (tcTables nBuf tb) → BufTy
  | .hbm, ⟨0, _⟩ => ⟨S4x4096x4096, .f32⟩
  | .hbm, ⟨1, _⟩ => ⟨S128x4096, .f32⟩
  | .hbm, ⟨2, _⟩ => ⟨S4096x128, .f32⟩
  | .hbm, ⟨3, _⟩ => ⟨S16384x4096, .f32⟩
  | .hbm, ⟨4, _⟩ => ⟨S4096x128, .f32⟩
  | .hbm, ⟨5, _⟩ => ⟨S128x4096, .f32⟩
  | .hbm, ⟨6, _⟩ => ⟨S16384x4096, .f32⟩
  | .hbm, ⟨7, _⟩ => ⟨S4x4096x4096, .f32⟩
  | .local _ .vmem, ⟨0, _⟩ => ⟨S256x4096, .f32⟩
  | .local _ .vmem, ⟨1, _⟩ => ⟨S256x4096, .f32⟩
  | .local _ .vmem, ⟨2, _⟩ => ⟨S4096x128, .f32⟩
  | .local _ .vmem, ⟨3, _⟩ => ⟨S128x4096, .f32⟩
  | .local _ .vmem, ⟨4, _⟩ => ⟨S256x4096, .f32⟩
  | .local _ .vmem, ⟨5, _⟩ => ⟨S256x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x4096x4096_S16384x4096 : S4x4096x4096.ShapeCasts S16384x4096
  transposes_S128x4096_S4096x128_1_0 : S128x4096.Transposes [1, 0] S4096x128
  transposes_S4096x128_S128x4096_1_0 : S4096x128.Transposes [1, 0] S128x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  reduces_S256x4096_S256 : S256x4096.Reduces [1] S256
  shapeCasts_S256_S256x1 : S256.ShapeCasts S256x1
  broadcasts_S256x1_S256x4096 : S256x1.Broadcasts S256x4096
  bitsLt_bf16_f32 : FTy.bits .bf16 < FTy.bits .f32
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  shapeCasts_S16384x4096_S4x4096x4096 : S16384x4096.ShapeCasts S4x4096x4096
  dot_S256x4096_S4096x128_S256x128_1_0_0_1_n_n_wf : DotDims.WF S256x4096 S4096x128 S256x128 [1] [0] [0] [1] [] []
  dot_S256x128_S128x4096_S256x4096_1_0_0_1_n_n_wf : DotDims.WF S256x128 S128x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S4096x128.size a
  hwx0_1 : ∀ i : grid0.Coords, EltTy.bits .f32 = 32 ∨ (Rect.block (s := S4096x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S128x4096.size a
  hwx0_2 : ∀ i : grid0.Coords, EltTy.bits .f32 = 32 ∨ (Rect.block (s := S128x4096) S128x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S16384x4096.size a
  hwx0_3 : ∀ i : grid0.Coords, EltTy.bits .f32 = 32 ∨ (Rect.block (s := S16384x4096) S256x4096.size (cc0_transform_3 i) (hinb0_3 i)).WholeWords (EltTy.packing .f32)

variable [Facts₀]

def dot_S256x4096_S4096x128_S256x128_1_0_0_1_n_n : DotDims S256x4096 S4096x128 S256x128 where
  lhsContracting := [1]
  rhsContracting := [0]
  lhsNonContracting := [0]
  rhsNonContracting := [1]
  lhsBatch := []
  rhsBatch := []
  wf := dot_S256x4096_S4096x128_S256x128_1_0_0_1_n_n_wf
def dot_S256x128_S128x4096_S256x4096_1_0_0_1_n_n : DotDims S256x128 S128x4096 S256x4096 where
  lhsContracting := [1]
  rhsContracting := [0]
  lhsNonContracting := [0]
  rhsNonContracting := [1]
  lhsBatch := []
  rhsBatch := []
  wf := dot_S256x128_S128x4096_S256x4096_1_0_0_1_n_n_wf

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S128x4096 : Shape := ⟨2, ![128, 4096]⟩
abbrev S4096x128 : Shape := ⟨2, ![4096, 128]⟩
abbrev S_ : Shape := ⟨0, ![]⟩
abbrev S4x4096 : Shape := ⟨2, ![4, 4096]⟩
abbrev S4x4096x1 : Shape := ⟨3, ![4, 4096, 1]⟩
abbrev S4x4096x128 : Shape := ⟨3, ![4, 4096, 128]⟩

abbrev nBuf : Space → Nat
  | .hbm => 36
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S128x4096, .f32⟩
  | .hbm, ⟨2, _⟩ => ⟨S4096x128, .f32⟩
  | .hbm, ⟨3, _⟩ => ⟨S4x4096x4096, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1, .f32⟩
  | .hbm, ⟨14, _⟩ => ⟨S4x4096x4096, .f32⟩
  | .hbm, ⟨15, _⟩ => ⟨S4x4096x4096, .f32⟩
  | .hbm, ⟨16, _⟩ => ⟨S4x4096x128, .f32⟩
  | .hbm, ⟨17, _⟩ => ⟨S4x4096x128, .f32⟩
  | .hbm, ⟨18, _⟩ => ⟨S4x4096x128, .f32⟩
  | .hbm, ⟨19, _⟩ => ⟨S_, .f32⟩
  | .hbm, ⟨20, _⟩ => ⟨S4x4096x128, .f32⟩
  | .hbm, ⟨21, _⟩ => ⟨S4x4096x128, .f32⟩
  | .hbm, ⟨22, _⟩ => ⟨S_, .f32⟩
  | .hbm, ⟨23, _⟩ => ⟨S4x4096x128, .f32⟩
  | .hbm, ⟨24, _⟩ => ⟨S4x4096x128, .f32⟩
  | .hbm, ⟨25, _⟩ => ⟨S4x4096x128, .f32⟩
  | .hbm, ⟨26, _⟩ => ⟨S4x4096x4096, .f32⟩
  | .hbm, ⟨27, _⟩ => ⟨S4x4096x4096, .f32⟩
  | .hbm, ⟨28, _⟩ => ⟨S4x4096x4096, .f32⟩
  | .hbm, ⟨29, _⟩ => ⟨S_, .f32⟩
  | .hbm, ⟨30, _⟩ => ⟨S4x4096x4096, .f32⟩
  | .hbm, ⟨31, _⟩ => ⟨S4x4096x4096, .f32⟩
  | .hbm, ⟨32, _⟩ => ⟨S_, .f32⟩
  | .hbm, ⟨33, _⟩ => ⟨S4x4096x4096, .f32⟩
  | .hbm, ⟨34, _⟩ => ⟨S4x4096x4096, .f32⟩
  | .hbm, ⟨35, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩

abbrev nD : Nat := 1
abbrev τ : Topo := Topo.v7x

variable {F : FTy → Type} [FloatOps F]

class Facts₀ : Prop where
  reducesTo_S4x4096x4096_S4x4096_d2 : S4x4096x4096.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x4096_0_1_2 : S4x4096x1.BroadcastsInDim S4x4096x4096 (![0, 1, 2] : Fin 3 → Fin S4x4096x4096.rank)
  bcast_S_S4x4096x128 : S_.BroadcastsInDim S4x4096x128 (![] : Fin 0 → Fin S4x4096x128.rank)
  bcast_S_S4x4096x4096 : S_.BroadcastsInDim S4x4096x4096 (![] : Fin 0 → Fin S4x4096x4096.rank)
  dot_S4x4096x4096_S128x4096_S4x4096x128_2_1_01_0_n_n_wf : DotDims.WF S4x4096x4096 S128x4096 S4x4096x128 [2] [1] [0, 1] [0] [] []
  dot_S4x4096x128_S4096x128_S4x4096x4096_2_1_01_0_n_n_wf : DotDims.WF S4x4096x128 S4096x128 S4x4096x4096 [2] [1] [0, 1] [0] [] []

variable [Facts₀]

def dot_S4x4096x4096_S128x4096_S4x4096x128_2_1_01_0_n_n : DotDims S4x4096x4096 S128x4096 S4x4096x128 where
  lhsContracting := [2]
  rhsContracting := [1]
  lhsNonContracting := [0, 1]
  rhsNonContracting := [0]
  lhsBatch := []
  rhsBatch := []
  wf := dot_S4x4096x4096_S128x4096_S4x4096x128_2_1_01_0_n_n_wf
def dot_S4x4096x128_S4096x128_S4x4096x4096_2_1_01_0_n_n : DotDims S4x4096x128 S4096x128 S4x4096x4096 where
  lhsContracting := [2]
  rhsContracting := [1]
  lhsNonContracting := [0, 1]
  rhsNonContracting := [0]
  lhsBatch := []
  rhsBatch := []
  wf := dot_S4x4096x128_S4096x128_S4x4096x4096_2_1_01_0_n_n_wf

class Facts : Prop extends Facts₀ where

variable [Facts]
-- ==== Proof.RowFormula.lean ====
/-
  The gated root-mean-square normalisation, ONE ROW at a time, on the extended reals.

  For a row `xr` of 4096 entries, a down-projection `wd : 128 × 4096` and an up-projection `wu : 4096 × 128`:

    invRms xr      = rsqrt ((Σ_k xr k · xr k) / 4096 + 2⁻²³)
    normed xr k    = xr k · invRms xr
    down xr wd r   = Σ_k normed xr k · wd r k
    hidden xr wd r = down r · logistic (down r)                       (the SiLU of the down-projection)
    gatePre d      = Σ_r hidden r · wu d r
    gated d        = normed xr d · logistic (gatePre d)

  Every operation is the extended reals' own (`Ideal.div`, `Ideal.rsqrt`, `Ideal.logistic`), the two float
  literals are kept as the words both programs print (4096.0 and 2⁻²³: the same words on both sides, never
  evaluated), and no law beyond the definitions is used: both programs compute this very expression, the kernel on
  256-row blocks of the flattened input with the weights transposed beforehand, the reference on the rank-3 input with
  the logistic function spelt out as `1 / (1 + e^(-x))`. The last lemma is that spelling.
-/
import Idealize.ShloMosaic.PureOps.Ideal
import Idealize.ShloMosaic.PureOps.IdealRules
import Idealize.ShloMosaic.Lib.ValueIdx

noncomputable section

namespace Cert.GatedNorm

open Idealize.ShloMosaic Idealize.ShloMosaic.ValueIdx

/-- The reciprocal root of a row's mean square, the mean taken by dividing the sum of squares by the word of 4096.0
    and shifted by the word of 2⁻²³ (the format's machine epsilon). -/
def invRms (xr : Fin 4096 → EReal) : EReal :=
  Ideal.rsqrt (Ideal.div (∑ k : Fin 4096, xr k * xr k) (Ideal.ofBits .f32 0x45800000#32) + Ideal.ofBits .f32 0x34000000#32)

/-- The normalised row. -/
def normed (xr : Fin 4096 → EReal) (k : Fin 4096) : EReal := xr k * invRms xr

/-- The rank-128 down-projection of the normalised row: entry `r` contracts the row with row `r` of `wd`. -/
def down (xr : Fin 4096 → EReal) (wd : Fin 128 → Fin 4096 → EReal) (r : Fin 128) : EReal :=
  ∑ k : Fin 4096, normed xr k * wd r k

/-- Its SiLU: `z · logistic z`. -/
def hidden (xr : Fin 4096 → EReal) (wd : Fin 128 → Fin 4096 → EReal) (r : Fin 128) : EReal :=
  down xr wd r * Ideal.logistic (down xr wd r)

/-- The up-projection back to 4096 entries: entry `d` contracts the hidden vector with row `d` of `wu`. -/
def gatePre (xr : Fin 4096 → EReal) (wd : Fin 128 → Fin 4096 → EReal) (wu : Fin 4096 → Fin 128 → EReal) (d : Fin 4096) : EReal :=
  ∑ r : Fin 128, hidden xr wd r * wu d r

/-- The result row: the normalised row times the logistic gate. -/
def gated (xr : Fin 4096 → EReal) (wd : Fin 128 → Fin 4096 → EReal) (wu : Fin 4096 → Fin 128 → EReal) (d : Fin 4096) : EReal :=
  normed xr d * Ideal.logistic (gatePre xr wd wu d)

/-- The row formula depends on its arguments entry by entry only. -/
theorem gated_congr {xr xr' : Fin 4096 → EReal} {wd wd' : Fin 128 → Fin 4096 → EReal} {wu wu' : Fin 4096 → Fin 128 → EReal}
    {d d' : Fin 4096} (hx : ∀ k, xr k = xr' k) (hd : ∀ r k, wd r k = wd' r k) (hu : ∀ e r, wu e r = wu' e r) (hq : d = d') :
    gated xr wd wu d = gated xr' wd' wu' d' := by
  obtain rfl : xr = xr' := funext hx
  obtain rfl : wd = wd' := funext fun r => funext (hd r)
  obtain rfl : wu = wu' := funext fun e => funext (hu e)
  rw [hq]

/-- THE WHOLE RESULT, as one function of the three arguments: entry (b, s, d) is the row formula of row (b, s) of the
    input, with `W_down` read by (rank index, input index) and `W_up` by (output index, rank index), at `d`. Both
    programs end with their result array at this function of their arguments. -/
def result (x : (⟨3, ![4, 4096, 4096]⟩ : Shape).Idx → EReal) (wdn : (⟨2, ![128, 4096]⟩ : Shape).Idx → EReal)
    (wup : (⟨2, ![4096, 128]⟩ : Shape).Idx → EReal) : (⟨3, ![4, 4096, 4096]⟩ : Shape).Idx → EReal :=
  fun i => gated (fun k => x (ix3 (i 0) (i 1) k)) (fun r k => wdn (ix2 r k)) (fun e r => wup (ix2 e r)) (i 2)

/-- The word of 1.0 denotes the extended real 1. -/
theorem one_word : Ideal.ofBits .f32 0x3F800000#32 = 1 := IdealRules.sign_bit.ideal_onePat .f32

/-- The logistic function spelt out with the word of 1.0, `1 / (1 + e^(-z))`, is the logistic function: that IS its
    definition on the extended reals, at the infinities too. -/
theorem logistic_spelt (z : EReal) :
    Ideal.div (Ideal.ofBits .f32 0x3F800000#32) (Ideal.ofBits .f32 0x3F800000#32 + Ideal.exp (-z)) = Ideal.logistic z := by
  rw [one_word]; rfl

end Cert.GatedNorm

end
-- ==== Proof.RefRow.lean ====
/-
  The reference, read one row at a time: at the index (b, s, d) its result is the row formula `gated` of row (b, s) of
  the input, of `W_down` and of `W_up`, at entry `d`.

  The reference works on the rank-3 input directly. Its sum of squares over the last axis is the initial word of 0.0
  plus the sum over `k` (the zero drops); the mean, the epsilon and the reciprocal root are the row formula's own
  operations; its two `dot_general`s contract the last axis of the left operand with the LAST axis of the weight
  (`einsum 'bsd,rd->bsr'` and `'bsr,dr->bsd'`), which is how `down` and `gatePre` index their weights; and its two
  logistic functions are spelt out `1 / (1 + e^(-z))` with the word of 1.0 (`logistic_spelt`).
-/
import proofs.«122722_j56023553409270_1_alg».proof.Proof.Gen.ReferenceIdeal.Read
import proofs.«122722_j56023553409270_1_alg».proof.Proof.RowFormula

noncomputable section

namespace Cert.GatedNorm.Ref

open Idealize.ShloMosaic Idealize.ShloMosaic.ValueIdx Cert.ReferenceIdeal Cert.ReferenceIdeal.Read Cert.GatedNorm

variable (x : FVec Ideal S4x4096x4096 .f32) (wdn : FVec Ideal S128x4096 .f32) (wup : FVec Ideal S4096x128 .f32)

/-- Row (b, s) of the input. -/
abbrev row (b : Fin 4) (s : Fin 4096) : Fin 4096 → EReal := fun k => x (ix3 b s k)
/-- `W_down` by (rank index, input index). -/
abbrev wd : Fin 128 → Fin 4096 → EReal := fun r k => wdn (ix2 r k)
/-- `W_up` by (output index, rank index). -/
abbrev wu : Fin 4096 → Fin 128 → EReal := fun d r => wup (ix2 d r)

/-- The sum of squares at (b, s, ·) runs over row (b, s): the keepdims broadcasts and the reduction's inserted
    coordinate compose to (b, s, k). -/
theorem sq_idx (b : Fin 4) (s : Fin 4096) (d k : Fin 4096) :
    idx_main_v1 (idx_main_v2 (idx_main_v8 (ix3 b s d))) k = ix3 b s k :=
  funext fun a => Fin.ext (by match a with | ⟨0, _⟩ => rfl | ⟨1, _⟩ => rfl | ⟨2, _⟩ => rfl)

/-- The normalised input at (b, s, d). -/
theorem normed_at (b : Fin 4) (s : Fin 4096) (d : Fin 4096) :
    val_main_v9 (F := Ideal) x (ix3 b s d) = normed (row x b s) d := by
  rw [val_main_v9_apply, val_main_v8_apply, val_main_v7_apply, val_main_v6_apply, val_main_v4_apply, val_main_v2_apply,
    val_main_v1_apply, val_main_v3_apply, val_main_v5_apply, val_main_cst_0_apply, val_main_cst_1_apply, val_main_cst_apply]
  simp only [val_main_v0_apply, sq_idx, Ideal.mulf_def, Ideal.hostUnary_rsqrt_def, Ideal.addf_def, Ideal.hostDivf_def,
    Ideal.ofBits_def, Ideal.ofBits_zero_f32, zero_add]
  rfl

/-- The first `dot_general` at (b, s, r): the down-projection of row (b, s). -/
theorem down_at (b : Fin 4) (s : Fin 4096) (r : Fin 128) :
    val_main_v10 (F := Ideal) x wdn (ix3 b s r) = down (row x b s) (wd wdn) r := by
  rw [val_main_v10_apply]
  unfold down
  refine Finset.sum_congr rfl fun k _ => ?_
  have el : lidx_main_v10 (ix3 b s r) k = ix3 b s k :=
    funext fun a => Fin.ext (by match a with | ⟨0, _⟩ => rfl | ⟨1, _⟩ => rfl | ⟨2, _⟩ => rfl)
  have er : ridx_main_v10 (ix3 b s r) k = ix2 r k :=
    funext fun a => Fin.ext (by match a with | ⟨0, _⟩ => rfl | ⟨1, _⟩ => rfl)
  rw [el, er, normed_at]

/-- The SiLU, as the reference's called function spells it, at (b, s, r). -/
theorem hidden_at (b : Fin 4) (s : Fin 4096) (r : Fin 128) :
    val_main_v11 (F := Ideal) x wdn (ix3 b s r) = hidden (row x b s) (wd wdn) r := by
  rw [val_main_v11_apply, val_main_call0_v5_apply, val_main_call0_v4_apply, val_main_call0_v3_apply, val_main_call0_v2_apply,
    val_main_call0_v1_apply, val_main_call0_v0_apply, val_main_call0_cst_apply, val_main_call0_cst_0_apply, down_at]
  simp only [Ideal.mulf_def, Ideal.hostDivf_def, Ideal.addf_def, Ideal.hostUnary_exp_def, Ideal.hostNegf_def, Ideal.negf_def,
    Ideal.ofBits_def, logistic_spelt]
  rfl

/-- The second `dot_general` at (b, s, d): the up-projection of the hidden vector of row (b, s). -/
theorem gatePre_at (b : Fin 4) (s : Fin 4096) (d : Fin 4096) :
    val_main_v12 (F := Ideal) x wdn wup (ix3 b s d) = gatePre (row x b s) (wd wdn) (wu wup) d := by
  rw [val_main_v12_apply]
  unfold gatePre
  refine Finset.sum_congr rfl fun r _ => ?_
  have el : lidx_main_v12 (ix3 b s d) r = ix3 b s r :=
    funext fun a => Fin.ext (by match a with | ⟨0, _⟩ => rfl | ⟨1, _⟩ => rfl | ⟨2, _⟩ => rfl)
  have er : ridx_main_v12 (ix3 b s d) r = ix2 d r :=
    funext fun a => Fin.ext (by match a with | ⟨0, _⟩ => rfl | ⟨1, _⟩ => rfl)
  rw [el, er, hidden_at]

/-- THE REFERENCE'S RESULT at (b, s, d) is the row formula of row (b, s) at `d`. -/
theorem result_at (b : Fin 4) (s : Fin 4096) (d : Fin 4096) :
    val_main_v19 (F := Ideal) x wdn wup (ix3 b s d) = gated (row x b s) (wd wdn) (wu wup) d := by
  rw [val_main_v19_apply, val_main_v18_apply, val_main_v17_apply, val_main_v16_apply, val_main_v15_apply, val_main_v14_apply,
    val_main_v13_apply, val_main_cst_2_apply, val_main_cst_3_apply, gatePre_at, normed_at]
  simp only [Ideal.mulf_def, Ideal.hostDivf_def, Ideal.addf_def, Ideal.hostUnary_exp_def, Ideal.hostNegf_def, Ideal.negf_def,
    Ideal.ofBits_def, logistic_spelt]
  rfl

/-- So the reference's last stage IS the whole-result function of its three arguments. -/
theorem result_eq : val_main_v19 (F := Ideal) x wdn wup = result x wdn wup := by
  funext i
  obtain ⟨b, s, d, rfl⟩ : ∃ (b : Fin 4) (s : Fin 4096) (d : Fin 4096), i = ix3 b s d := ⟨i 0, i 1, i 2, eq_ix3 i⟩
  exact result_at x wdn wup b s d

end Cert.GatedNorm.Ref

end
-- ==== Proof.LibKeepdims.lean ====
/-
  Layout operations of a `keepdims=True` row reduction, read at an index given by coordinates, generic in the extents:
  a vector made a one-column matrix by a shape cast ([a] → [a, 1]); a one-column matrix broadcast along its rows
  ([a, 1] → [a, b]); and, on the extended reals, a float lane sum over axis 1 of a matrix read at a row as the sum over
  that row's entries. Each is the library's general lemma (`shapeCast_apply`, `broadcastTo_apply`,
  `Ideal.multiReduction_add_single`) with both indices written `ix1` / `ix2` and the coordinate arithmetic done.
-/
import Idealize.ShloMosaic.Lib.Pipeline.Value
import Idealize.ShloMosaic.Lib.ValueIdx
import Idealize.ShloMosaic.PureOps.Ideal.Laws

namespace Cert.Lib.Keepdims

open Idealize.ShloMosaic Idealize.ShloMosaic.ValueIdx

variable {α : Type}

/-- A vector cast to a one-column matrix reads, at (p, z), the vector at p: both have row-major position p. -/
theorem shapeCast_a_a1_apply {a : ℕ} (v : (⟨1, ![a]⟩ : Shape).Idx → α) (h : (⟨1, ![a]⟩ : Shape).ShapeCasts ⟨2, ![a, 1]⟩)
    (p : Fin a) (z : Fin 1) : shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt
  omega

/-- A one-column matrix broadcast along its rows reads, at (p, q), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- On the extended reals a float lane sum over axis 1 of a matrix is, at row p, the sum over k of the entry (p, k).
    The accumulator's hypothesis is typed as a printed payload's proof is (the zero word equal to itself). -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax
  match ax with
  | ⟨0, _⟩ => rfl
  | ⟨1, _⟩ => rfl

end Cert.Lib.Keepdims
-- ==== Proof.KernelRow.lean ====
/-
  The kernel body's stored value, read one entry at a time: on a block of 256 rows, entry (p, q) of what the body
  stores is the row formula `gated` of row p of the input block, at entry q — with the weights as the body finds them,
  ALREADY TRANSPOSED: its second operand is `W_down` transposed ([4096, 128], so the formula's `wd r k` is its entry
  (k, r)) and its third is `W_up` transposed ([128, 4096], so `wu d r` is its entry (r, d)).

  The body's stages, named once (`normedBlock`, `hiddenBlock`) so that each is read by a short lemma:
  the sum of squares is a lane sum over axis 1 kept as a column ([256] → [256, 1]) and broadcast back along the rows;
  the two matrix products accumulate into zero, so each is the plain sum over the contracted coordinate; the changes of
  float format before each product are the identity on the extended reals; the body's one-operation logistic function
  is the row formula's.
-/
import proofs.«122722_j56023553409270_1_alg».proof.Proof.Gen.KernelIdeal.Skeleton
import proofs.«122722_j56023553409270_1_alg».proof.Proof.RowFormula
import proofs.«122722_j56023553409270_1_alg».proof.Proof.LibKeepdims
import Idealize.ShloMosaic.Lib.ValueIdx
import Idealize.ShloMosaic.Lib.Pipeline.Value
import Idealize.ShloMosaic.PureOps.Ideal.Laws

noncomputable section

namespace Cert.GatedNorm.Kern

open Idealize.ShloMosaic Idealize.ShloMosaic.ValueIdx Cert.KernelIdeal Cert.KernelIdeal.Facts₀
open Cert.KernelIdeal.Gen (k0_pay1)
open Cert.GatedNorm Cert.Lib.Keepdims

/-! ## The two matrix products at an index -/

/-- The contraction [256, 4096] × [4096, 128]. -/
abbrev D1 := dot_S256x4096_S4096x128_S256x128_1_0_0_1_n_n
/-- The contraction [256, 128] × [128, 4096]. -/
abbrev D2 := dot_S256x128_S128x4096_S256x4096_1_0_0_1_n_n

theorem lhs_D1_0 (i : S256x128.Idx) (q : dot_S256x4096_S4096x128_S256x128_1_0_0_1_n_n.contr.Idx) :
    (dot_S256x4096_S4096x128_S256x128_1_0_0_1_n_n.lhsIdx i q 0).val = (i 0).val := by
  unfold DotDims.lhsIdx
  rw [dif_neg (show ¬(0 : Fin S256x4096.rank) ∈ dot_S256x4096_S4096x128_S256x128_1_0_0_1_n_n.lhsBatch by decide), dif_pos (show (0 : Fin S256x4096.rank) ∈ dot_S256x4096_S4096x128_S256x128_1_0_0_1_n_n.lhsNonContracting by decide)]
  rfl
theorem lhs_D1_1 (i : S256x128.Idx) (q : dot_S256x4096_S4096x128_S256x128_1_0_0_1_n_n.contr.Idx) :
    (dot_S256x4096_S4096x128_S256x128_1_0_0_1_n_n.lhsIdx i q 1).val = (q ⟨0, by decide⟩).val :=
  dot_S256x4096_S4096x128_S256x128_1_0_0_1_n_n.lhsIdx_val_of_single rfl i q
theorem rhs_D1_0 (i : S256x128.Idx) (q : dot_S256x4096_S4096x128_S256x128_1_0_0_1_n_n.contr.Idx) :
    (dot_S256x4096_S4096x128_S256x128_1_0_0_1_n_n.rhsIdx i q 0).val = (q ⟨0, by decide⟩).val :=
  dot_S256x4096_S4096x128_S256x128_1_0_0_1_n_n.rhsIdx_val_of_single rfl i q
theorem rhs_D1_1 (i : S256x128.Idx) (q : dot_S256x4096_S4096x128_S256x128_1_0_0_1_n_n.contr.Idx) :
    (dot_S256x4096_S4096x128_S256x128_1_0_0_1_n_n.rhsIdx i q 1).val = (i 1).val := by
  unfold DotDims.rhsIdx
  rw [dif_neg (show ¬(1 : Fin S4096x128.rank) ∈ dot_S256x4096_S4096x128_S256x128_1_0_0_1_n_n.rhsBatch by decide), dif_pos (show (1 : Fin S4096x128.rank) ∈ dot_S256x4096_S4096x128_S256x128_1_0_0_1_n_n.rhsNonContracting by decide)]
  rfl

/-- The first product into zero, at (p, r): the sum over k of left (p, k) times right (k, r). -/
theorem downDot_apply (l : FVec Ideal S256x4096 .bf16) (w : FVec Ideal S4096x128 .bf16) (p : Fin 256) (r : Fin 128) :
    matmul dot_S256x4096_S4096x128_S256x128_1_0_0_1_n_n none l w (constant (F := Ideal) S256x128 .f32 0x00000000#32) (ix2 p r)
      = ∑ k : Fin 4096, l (ix2 p k) * w (ix2 k r) := by
  simp only [matmul]
  rw [Ideal.matmul_constant_zero_apply, ← Equiv.sum_comp (contrEquiv1 dot_S256x4096_S4096x128_S256x128_1_0_0_1_n_n 4096 rfl rfl).symm]
  refine Finset.sum_congr rfl fun k _ => ?_
  have hk := contrEquiv1_symm_val dot_S256x4096_S4096x128_S256x128_1_0_0_1_n_n 4096 rfl rfl k
  have el : dot_S256x4096_S4096x128_S256x128_1_0_0_1_n_n.lhsIdx (ix2 p r) ((contrEquiv1 dot_S256x4096_S4096x128_S256x128_1_0_0_1_n_n 4096 rfl rfl).symm k) = ix2 p k := funext fun a => Fin.ext (by
    match a with
    | ⟨0, _⟩ => exact lhs_D1_0 _ _
    | ⟨1, _⟩ => exact (lhs_D1_1 _ _).trans hk)
  have er : dot_S256x4096_S4096x128_S256x128_1_0_0_1_n_n.rhsIdx (ix2 p r) ((contrEquiv1 dot_S256x4096_S4096x128_S256x128_1_0_0_1_n_n 4096 rfl rfl).symm k) = ix2 k r := funext fun a => Fin.ext (by
    match a with
    | ⟨0, _⟩ => exact (rhs_D1_0 _ _).trans hk
    | ⟨1, _⟩ => exact rhs_D1_1 _ _)
  rw [el, er]

theorem lhs_D2_0 (i : S256x4096.Idx) (q : dot_S256x128_S128x4096_S256x4096_1_0_0_1_n_n.contr.Idx) :
    (dot_S256x128_S128x4096_S256x4096_1_0_0_1_n_n.lhsIdx i q 0).val = (i 0).val := by
  unfold DotDims.lhsIdx
  rw [dif_neg (show ¬(0 : Fin S256x128.rank) ∈ dot_S256x128_S128x4096_S256x4096_1_0_0_1_n_n.lhsBatch by decide), dif_pos (show (0 : Fin S256x128.rank) ∈ dot_S256x128_S128x4096_S256x4096_1_0_0_1_n_n.lhsNonContracting by decide)]
  rfl
theorem lhs_D2_1 (i : S256x4096.Idx) (q : dot_S256x128_S128x4096_S256x4096_1_0_0_1_n_n.contr.Idx) :
    (dot_S256x128_S128x4096_S256x4096_1_0_0_1_n_n.lhsIdx i q 1).val = (q ⟨0, by decide⟩).val :=
  dot_S256x128_S128x4096_S256x4096_1_0_0_1_n_n.lhsIdx_val_of_single rfl i q
theorem rhs_D2_0 (i : S256x4096.Idx) (q : dot_S256x128_S128x4096_S256x4096_1_0_0_1_n_n.contr.Idx) :
    (dot_S256x128_S128x4096_S256x4096_1_0_0_1_n_n.rhsIdx i q 0).val = (q ⟨0, by decide⟩).val :=
  dot_S256x128_S128x4096_S256x4096_1_0_0_1_n_n.rhsIdx_val_of_single rfl i q
theorem rhs_D2_1 (i : S256x4096.Idx) (q : dot_S256x128_S128x4096_S256x4096_1_0_0_1_n_n.contr.Idx) :
    (dot_S256x128_S128x4096_S256x4096_1_0_0_1_n_n.rhsIdx i q 1).val = (i 1).val := by
  unfold DotDims.rhsIdx
  rw [dif_neg (show ¬(1 : Fin S128x4096.rank) ∈ dot_S256x128_S128x4096_S256x4096_1_0_0_1_n_n.rhsBatch by decide), dif_pos (show (1 : Fin S128x4096.rank) ∈ dot_S256x128_S128x4096_S256x4096_1_0_0_1_n_n.rhsNonContracting by decide)]
  rfl

/-- The second product into zero, at (p, d): the sum over r of left (p, r) times right (r, d). -/
theorem upDot_apply (l : FVec Ideal S256x128 .bf16) (w : FVec Ideal S128x4096 .bf16) (p : Fin 256) (d : Fin 4096) :
    matmul dot_S256x128_S128x4096_S256x4096_1_0_0_1_n_n none l w (constant (F := Ideal) S256x4096 .f32 0x00000000#32) (ix2 p d)
      = ∑ r : Fin 128, l (ix2 p r) * w (ix2 r d) := by
  simp only [matmul]
  rw [Ideal.matmul_constant_zero_apply, ← Equiv.sum_comp (contrEquiv1 dot_S256x128_S128x4096_S256x4096_1_0_0_1_n_n 128 rfl rfl).symm]
  refine Finset.sum_congr rfl fun k _ => ?_
  have hk := contrEquiv1_symm_val dot_S256x128_S128x4096_S256x4096_1_0_0_1_n_n 128 rfl rfl k
  have el : dot_S256x128_S128x4096_S256x4096_1_0_0_1_n_n.lhsIdx (ix2 p d) ((contrEquiv1 dot_S256x128_S128x4096_S256x4096_1_0_0_1_n_n 128 rfl rfl).symm k) = ix2 p k := funext fun a => Fin.ext (by
    match a with
    | ⟨0, _⟩ => exact lhs_D2_0 _ _
    | ⟨1, _⟩ => exact (lhs_D2_1 _ _).trans hk)
  have er : dot_S256x128_S128x4096_S256x4096_1_0_0_1_n_n.rhsIdx (ix2 p d) ((contrEquiv1 dot_S256x128_S128x4096_S256x4096_1_0_0_1_n_n 128 rfl rfl).symm k) = ix2 k d := funext fun a => Fin.ext (by
    match a with
    | ⟨0, _⟩ => exact (rhs_D2_0 _ _).trans hk
    | ⟨1, _⟩ => exact rhs_D2_1 _ _)
  rw [el, er]

/-! ## The body's stages -/

/-- The normalised block: the input block times the reciprocal root of each row's mean square plus epsilon, as the
    body computes it (lane sum, column cast, division by the splat of 4096.0, the splat of 2⁻²³ added, `rsqrt`, the
    column broadcast back). -/
def normedBlock (x0 : FVec Ideal S256x4096 .f32) : FVec Ideal S256x4096 .f32 :=
  mulf (shapeCast S256x4096 x0 shapeCasts_S256x4096_S256x4096)
    (broadcastTo S256x4096
      (rsqrt (addf (divf (shapeCast S256x1 (multiReduction .add [1] S256
          (mulf (shapeCast S256x4096 x0 shapeCasts_S256x4096_S256x4096) (shapeCast S256x4096 x0 shapeCasts_S256x4096_S256x4096))
          0x00000000#32 reduces_S256x4096_S256 (.inl rfl) rfl) shapeCasts_S256_S256x1)
        (broadcast S256x1 (Scalar.ofBits (F := Ideal) .f32 0x45800000#32)))
        (broadcast S256x1 (Scalar.ofBits (F := Ideal) .f32 0x34000000#32))))
      broadcasts_S256x1_S256x4096)

/-- The hidden block: the SiLU of the normalised block's product with the (transposed) down-projection. -/
def hiddenBlock (x0 : FVec Ideal S256x4096 .f32) (x1 : FVec Ideal S4096x128 .f32) : FVec Ideal S256x128 .f32 :=
  mulf
    (matmul dot_S256x4096_S4096x128_S256x128_1_0_0_1_n_n none (truncf .bf16 (normedBlock x0) bitsLt_bf16_f32)
      (truncf .bf16 (shapeCast S4096x128 x1 shapeCasts_S4096x128_S4096x128) bitsLt_bf16_f32) (constant (F := Ideal) S256x128 .f32 0x00000000#32))
    (logistic (matmul dot_S256x4096_S4096x128_S256x128_1_0_0_1_n_n none (truncf .bf16 (normedBlock x0) bitsLt_bf16_f32)
      (truncf .bf16 (shapeCast S4096x128 x1 shapeCasts_S4096x128_S4096x128) bitsLt_bf16_f32) (constant (F := Ideal) S256x128 .f32 0x00000000#32)))

/-- The body's stored value is the normalised block times the logistic function of the hidden block's product with the
    (transposed) up-projection: the printed payload with its intermediate values substituted. -/
theorem pay_eq (x0 : Vec Ideal S256x4096 .f32) (x1 : Vec Ideal S4096x128 .f32) (x2 : Vec Ideal S128x4096 .f32) :
    k0_pay1 (F := Ideal) x0 x1 x2
      = mulf (normedBlock x0)
          (logistic (matmul dot_S256x128_S128x4096_S256x4096_1_0_0_1_n_n none (truncf .bf16 (hiddenBlock x0 x1) bitsLt_bf16_f32)
            (truncf .bf16 (shapeCast S128x4096 x2 shapeCasts_S128x4096_S128x4096) bitsLt_bf16_f32) (constant (F := Ideal) S256x4096 .f32 0x00000000#32))) := rfl

/-! ## The stages at an index -/

/-- Row p of a block. -/
abbrev brow (x0 : FVec Ideal S256x4096 .f32) (p : Fin 256) : Fin 4096 → EReal := fun k => x0 (ix2 p k)
/-- The transposed down-projection by (rank index, input index). -/
abbrev wdT (x1 : FVec Ideal S4096x128 .f32) : Fin 128 → Fin 4096 → EReal := fun r k => x1 (ix2 k r)
/-- The transposed up-projection by (output index, rank index). -/
abbrev wuT (x2 : FVec Ideal S128x4096 .f32) : Fin 4096 → Fin 128 → EReal := fun d r => x2 (ix2 r d)

theorem normedBlock_at (x0 : FVec Ideal S256x4096 .f32) (p : Fin 256) (q : Fin 4096) :
    normedBlock x0 (ix2 p q) = normed (brow x0 p) q := by
  unfold normedBlock
  simp only [shapeCast_self]
  rw [mulf_apply, broadcastTo_a1_ab_apply]
  show x0 (ix2 p q) * Ideal.rsqrt (Ideal.div (shapeCast S256x1 _ shapeCasts_S256_S256x1 (ix2 p (0 : Fin 1))) (Ideal.ofBits .f32 0x45800000#32) + Ideal.ofBits .f32 0x34000000#32) = _
  rw [shapeCast_a_a1_apply]
  refine congrArg (fun z => x0 (ix2 p q) * Ideal.rsqrt (Ideal.div z (Ideal.ofBits .f32 0x45800000#32) + Ideal.ofBits .f32 0x34000000#32)) ?_
  exact rowSum_apply _ _ _ _ _ p

theorem hiddenBlock_at (x0 : FVec Ideal S256x4096 .f32) (x1 : FVec Ideal S4096x128 .f32) (p : Fin 256) (r : Fin 128) :
    hiddenBlock x0 x1 (ix2 p r) = hidden (brow x0 p) (wdT x1) r := by
  have hd : matmul dot_S256x4096_S4096x128_S256x128_1_0_0_1_n_n none (truncf .bf16 (normedBlock x0) bitsLt_bf16_f32)
      (truncf .bf16 (shapeCast S4096x128 x1 shapeCasts_S4096x128_S4096x128) bitsLt_bf16_f32) (constant (F := Ideal) S256x128 .f32 0x00000000#32) (ix2 p r)
        = down (brow x0 p) (wdT x1) r := by
    rw [downDot_apply]
    unfold down
    refine Finset.sum_congr rfl fun k _ => ?_
    rw [truncf_apply, truncf_apply, normedBlock_at, shapeCast_self]
  unfold hiddenBlock hidden
  rw [mulf_apply]
  show _ * Ideal.logistic _ = _
  rw [hd]

/-- THE BODY'S STORED VALUE at (p, q) is the row formula of row p of the input block, at q. -/
theorem pay_at (x0 : Vec Ideal S256x4096 .f32) (x1 : Vec Ideal S4096x128 .f32) (x2 : Vec Ideal S128x4096 .f32) (p : Fin 256) (q : Fin 4096) :
    k0_pay1 (F := Ideal) x0 x1 x2 (ix2 p q) = gated (brow x0 p) (wdT x1) (wuT x2) q := by
  rw [pay_eq]
  unfold gated gatePre
  rw [mulf_apply, normedBlock_at]
  show _ * Ideal.logistic _ = _
  rw [upDot_apply]
  refine congrArg (fun z => normed (brow x0 p) q * Ideal.logistic z) ?_
  refine Finset.sum_congr rfl fun r _ => ?_
  rw [truncf_apply, truncf_apply, hiddenBlock_at, shapeCast_self]

end Cert.GatedNorm.Kern

end
-- ==== Proof.KernelValue.lean ====
/-
  The kernel's run, read as a value: its result array ends at the whole-result function `result` of its three
  arguments.

  • Before the region the host flattens the input ([4, 4096, 4096] → [16384, 4096]: row (b, s) becomes row 4096·b + s)
    and transposes both weights; these are the arrays the region's windows read (`region_x`, `region_wdT`, `region_wuT`).
  • The region runs 64 grid points; point t reads rows 256·t … 256·t + 255 of the flattened input (window 0's block
    index is (t, 0)), the two transposed weights whole (block index (0, 0) at every point), and writes the same rows of
    the output (window 3's block index is (t, 0)). What it writes is the body's stored value, which entry by entry is
    the row formula of the block's row (KernelRow.lean): so every point flushes a block of ONE function of the region's
    arrays, `flat`, whose entry (R, q) is the row formula of row R of the flattened input.
  • The 64 blocks cover the 16384 rows (row R is in point R / 256's block), so the output array ends at `flat`.
  • After the region the host reshapes it back ([16384, 4096] → [4, 4096, 4096]): entry (b, s, d) is `flat` at
    (4096·b + s, d), which, the flattening and the transposes read back, is `result` at (b, s, d).
-/
import proofs.«122722_j56023553409270_1_alg».proof.Proof.Gen.KernelIdeal.Frame
import proofs.«122722_j56023553409270_1_alg».proof.Proof.KernelRow
import Idealize.ShloMosaic.Lib.StableHlo.Run
import Idealize.ShloMosaic.Lib.Pipeline.Value
import Idealize.ShloMosaic.Lib.ValueLayout
import Idealize.ShloMosaic.PureOps.Ideal

set_option maxRecDepth 16384

noncomputable section

namespace Cert.GatedNorm.KernValue

open Idealize.ShloMosaic Idealize.ShloMosaic.TcCoe Idealize.SL.Sem Idealize.ShloMosaic.StableHlo Idealize.ShloMosaic.ValueIdx
open Cert.KernelIdeal Cert.KernelIdeal.Gen
open Cert.GatedNorm Cert.GatedNorm.Kern

variable (m : (ℓ : Loc nD τ sig) → Buf (Elt Ideal) ℓ) (ρ : Dev nD → PrngReg)

/-! ## The arrays the region finds -/

/-- The flattened input. -/
theorem region_x (c : Dev nD) :
    (V m c main_v0 : S16384x4096.Idx → EReal)
      = shapeCast S16384x4096 (m ((c : Thread nD τ).loc main_arg0)) Gen.shapeCasts_S4x4096x4096_S16384x4096 := by
  show StableHlo.after hostOps0 (fun b => m (c, b)) (Proc.devRef .tc main_v0) = _
  after_results
  rfl

/-- `W_down`, transposed. -/
theorem region_wdT (c : Dev nD) :
    (V m c main_v1 : S4096x128.Idx → EReal)
      = transpose S4096x128 [1, 0] (m ((c : Thread nD τ).loc main_arg1)) Gen.transposes_S128x4096_S4096x128_1_0 := by
  show StableHlo.after hostOps0 (fun b => m (c, b)) (Proc.devRef .tc main_v1) = _
  after_results

/-- `W_up`, transposed. -/
theorem region_wuT (c : Dev nD) :
    (V m c main_v2 : S128x4096.Idx → EReal)
      = transpose S128x4096 [1, 0] (m ((c : Thread nD τ).loc main_arg2)) Gen.transposes_S4096x128_S128x4096_1_0 := by
  show StableHlo.after hostOps0 (fun b => m (c, b)) (Proc.devRef .tc main_v2) = _
  after_results

/-- Row R = 4096·b + s of the flattened input is row (b, s) of the input. -/
theorem region_x_at (c : Dev nD) (b : Fin 4) (s : Fin 4096) (k : Fin 4096) (R : Fin 16384) (hR : R.val = b.val * 4096 + s.val) :
    (V m c main_v0 : S16384x4096.Idx → EReal) (ix2 R k) = m ((c : Thread nD τ).loc main_arg0) (ix3 b s k) := by
  rw [region_x]
  refine shapeCast_apply _ _ (ix2 R k) (ix3 b s k) ?_
  rw [Shape.rowMajor_val_three, Shape.rowMajor_val_two]
  show (b.val * 4096 + s.val) * 4096 + k.val = R.val * 4096 + k.val
  rw [hR]

theorem region_wdT_at (c : Dev nD) (k : Fin 4096) (r : Fin 128) :
    (V m c main_v1 : S4096x128.Idx → EReal) (ix2 k r) = m ((c : Thread nD τ).loc main_arg1) (ix2 r k) := by
  rw [region_wdT]
  exact transpose_ix2_apply _ _ k r

theorem region_wuT_at (c : Dev nD) (r : Fin 128) (d : Fin 4096) :
    (V m c main_v2 : S128x4096.Idx → EReal) (ix2 r d) = m ((c : Thread nD τ).loc main_arg2) (ix2 d r) := by
  rw [region_wuT]
  exact transpose_ix2_apply _ _ r d

/-! ## One function of the region's arrays -/

/-- Entry (R, q) of the region's output: the row formula of row R of the flattened input. -/
def flatAt (A0 : FVec Ideal S16384x4096 .f32) (A1 : FVec Ideal S4096x128 .f32) (A2 : FVec Ideal S128x4096 .f32)
    (R : Fin 16384) (q : Fin 4096) : EReal :=
  gated (fun k => A0 (ix2 R k)) (wdT A1) (wuT A2) q

/-- The region's output as one array. -/
def flat (A0 : FVec Ideal S16384x4096 .f32) (A1 : FVec Ideal S4096x128 .f32) (A2 : FVec Ideal S128x4096 .f32) :
    S16384x4096.Idx → EReal :=
  fun i => flatAt A0 A1 A2 (i 0) (i 1)

/-- At one grid point: if a block's row p is row R of the array, and the two weight blocks are the weight arrays, the
    body's stored value at (p, q) is `flatAt` at (R, q). -/
theorem point_eq (A0 : FVec Ideal S16384x4096 .f32) (A1 : FVec Ideal S4096x128 .f32) (A2 : FVec Ideal S128x4096 .f32)
    (B0 : Vec Ideal S256x4096 .f32) (B1 : Vec Ideal S4096x128 .f32) (B2 : Vec Ideal S128x4096 .f32)
    (R : Fin 16384) (p : Fin 256) (q q' : Fin 4096)
    (h0 : ∀ k : Fin 4096, B0 (ix2 p k) = A0 (ix2 R k)) (h1 : ∀ (r : Fin 128) (k : Fin 4096), B1 (ix2 k r) = A1 (ix2 k r))
    (h2 : ∀ (d : Fin 4096) (r : Fin 128), B2 (ix2 r d) = A2 (ix2 r d)) (hq : q = q') :
    k0_pay1 (F := Ideal) B0 B1 B2 (ix2 p q) = flatAt A0 A1 A2 R q' :=
  (pay_at B0 B1 B2 p q).trans (gated_congr h0 h1 h2 hq)

/-! ## What each point writes back -/

theorem zero_offsets : (![0, 0] : Fin 2 → Nat) = fun _ => 0 := funext fun a => by fin_cases a <;> rfl

/-- The printed index maps over the grid: the input's block moves with the output's down the rows, every other block
    index is zero. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 63 :=
  (by decide +kernel : ∀ t : Fin grid0.N, _)

/-- Every block of rows is some point's. -/
theorem idx_onto : ∀ q0 : Fin 64, ∃ t : Fin cfg0.N, win0_3.index t = ![q0.val, 0] :=
  (by decide +kernel : ∀ q0 : Fin 64, ∃ t : Fin grid0.N, win0_3.index t = ![q0.val, 0])

/-- WHAT POINT t WRITES BACK is block t of `flat` of the region's arrays. -/
theorem flushed_eq (c : Dev nD) (t : Fin cfg0.N) :
    (dats m 0 c).flushed 3 t
      = ((cfg0.win 3).blk t).view.read (Elt Ideal) (flat (V m c main_v0) (V m c main_v1) (V m c main_v2)) := by
  show (cfg0.win 3).cut (grid0.coords t) ((dats m 0 c).after 3 t) = _
  rw [after0_3]
  unfold out0_3
  rw [View.canon_unit_zero zero_offsets]
  simp only [View.ld_unit_zero (S := S256x4096) zero_offsets, View.ld_unit_zero (S := S4096x128) zero_offsets,
    View.ld_unit_zero (S := S128x4096) zero_offsets]
  obtain ⟨e00, e01, e10, e11, e20, e21, e31, -⟩ := idx_facts t
  funext j
  show k0_pay1 (F := Ideal) (iblk m c 0 t) (iblk m c 1 t) (iblk m c 2 t) j
    = flat (V m c main_v0) (V m c main_v1) (V m c main_v2) (((cfg0.win 3).blk t).view.emb j)
  refine (congrArg (k0_pay1 (F := Ideal) (iblk m c 0 t) (iblk m c 1 t) (iblk m c 2 t)) (eq_ix2 j)).trans ?_
  refine point_eq (V m c main_v0) (V m c main_v1) (V m c main_v2) (iblk m c 0 t) (iblk m c 1 t) (iblk m c 2 t)
    ((((cfg0.win 3).blk t).view.emb j) 0) (j 0) (j 1) ((((cfg0.win 3).blk t).view.emb j) 1) ?_ ?_ ?_ ?_
  · intro k
    show V m c main_v0 (((cfg0.win 0).blk t).view.emb (ix2 (j 0) k)) = _
    refine congrArg (V m c main_v0) (funext fun a => Fin.ext ?_)
    match a with
    | ⟨0, _⟩ =>
      show win0_0.index t (0 : Fin 2) * 256 + 1 * (j 0).val = win0_3.index t (0 : Fin 2) * 256 + 1 * (j 0).val
      omega
    | ⟨1, _⟩ =>
      show win0_0.index t (1 : Fin 2) * 4096 + 1 * k.val = k.val
      omega
  · intro r k
    show V m c main_v1 (((cfg0.win 1).blk t).view.emb (ix2 k r)) = _
    refine congrArg (V m c main_v1) (funext fun a => Fin.ext ?_)
    match a with
    | ⟨0, _⟩ =>
      show win0_1.index t (0 : Fin 2) * 4096 + 1 * k.val = k.val
      omega
    | ⟨1, _⟩ =>
      show win0_1.index t (1 : Fin 2) * 128 + 1 * r.val = r.val
      omega
  · intro d r
    show V m c main_v2 (((cfg0.win 2).blk t).view.emb (ix2 r d)) = _
    refine congrArg (V m c main_v2) (funext fun a => Fin.ext ?_)
    match a with
    | ⟨0, _⟩ =>
      show win0_2.index t (0 : Fin 2) * 128 + 1 * r.val = r.val
      omega
    | ⟨1, _⟩ =>
      show win0_2.index t (1 : Fin 2) * 4096 + 1 * d.val = d.val
      omega
  · apply Fin.ext
    show (j 1).val = win0_3.index t (1 : Fin 2) * 4096 + 1 * (j 1).val
    omega

/-! ## The blocks cover the array -/

/-- An index of the output array is in point t's block iff each coordinate is in the block's range on its axis. -/
theorem mem_blk (t : Fin cfg0.N) (i : S16384x4096.Idx) :
    i ∈ ((cfg0.win 3).blk t).view.set ↔ ∀ a : Fin 2, win0_3.index t a * S256x4096.size a ≤ (i a).val ∧ (i a).val < win0_3.index t a * S256x4096.size a + S256x4096.size a := by
  show i ∈ ((View.whole main_v3).slice (win0_3.rect t)).set ↔ _
  rw [View.set_slice_whole, Rect.mem_set_unit]
  exact Iff.rfl

/-- Row R is in the block of point R / 256. -/
theorem covered (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  obtain ⟨t, ht⟩ := idx_onto ⟨(i 0).val / 256, by omega⟩
  have q0 : win0_3.index t (0 : Fin 2) = (i 0).val / 256 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 256 ≤ (i 0).val ∧ (i 0).val < win0_3.index t (0 : Fin 2) * 256 + 256
    omega
  | ⟨1, _⟩ =>
    show win0_3.index t (1 : Fin 2) * 4096 ≤ (i 1).val ∧ (i 1).val < win0_3.index t (1 : Fin 2) * 4096 + 4096
    omega

/-- THE OUTPUT ARRAY after the region is `flat` of the region's arrays. -/
theorem region_out (c : Dev nD) :
    (dats m 0 c).arrAt 3 cfg0.N = flat (V m c main_v0) (V m c main_v1) (V m c main_v2) :=
  (dats m 0 c).arrAt_eq_of_cover 3 (flat (V m c main_v0) (V m c main_v1) (V m c main_v2))
    (fun t _ => flushed_eq m c t) covered

/-! ## The host's reshape after the region, and the run -/

/-- The program's result buffer after the run is the whole-result function of the arguments. -/
theorem tail_eq (c : Dev nD) :
    (Pipeline.afterTail₀ cfgs (dats m) 0 (V0 m) [hostOps1] c main_v4 : S4x4096x4096.Idx → EReal)
      = result (m ((c : Thread nD τ).loc main_arg0)) (m ((c : Thread nD τ).loc main_arg1)) (m ((c : Thread nD τ).loc main_arg2)) := by
  have hw : Pipeline.withArrays (cfgs 0).spec c (V0 m c) (fun w => (dats m 0 c).arrAt w (cfgs 0).N) (Proc.devRef .tc main_v3)
      = flat (V m c main_v0) (V m c main_v1) (V m c main_v2) :=
    (Pipeline.withArrays_arr spec0 launch0.win.arr_inj c _ _ 3).trans (region_out m c)
  have hres : (Pipeline.afterTail₀ cfgs (dats m) 0 (V0 m) [hostOps1] c main_v4 : S4x4096x4096.Idx → EReal)
      = shapeCast S4x4096x4096 (flat (V m c main_v0) (V m c main_v1) (V m c main_v2)) Gen.shapeCasts_S16384x4096_S4x4096x4096 := by
    unfold Pipeline.afterTail₀
    show StableHlo.after hostOps1 _ (Proc.devRef .tc main_v4) = _
    after_results
    rw [hw]
    rfl
  rw [hres]
  funext i
  obtain ⟨b, s, d, rfl⟩ : ∃ (b : Fin 4) (s : Fin 4096) (d : Fin 4096), i = ix3 b s d := ⟨i 0, i 1, i 2, eq_ix3 i⟩
  have hR : b.val * 4096 + s.val < 16384 := by have := b.isLt; have := s.isLt; omega
  refine (shapeCast_apply _ _ (ix3 b s d) (ix2 (⟨b.val * 4096 + s.val, hR⟩ : Fin 16384) d) ?_).trans ?_
  · rw [Shape.rowMajor_val_three, Shape.rowMajor_val_two]
    rfl
  · show gated _ _ _ d = gated _ _ _ d
    exact gated_congr (fun k => region_x_at m c b s k ⟨b.val * 4096 + s.val, hR⟩ rfl)
      (fun r k => region_wdT_at m c k r) (fun e r => region_wuT_at m c r e) rfl

/-- THE RUN: every weakly fair execution of the kernel's program terminates with its result buffer at `result` of the
    arguments and the arguments unchanged. -/
theorem run : θ_run defs (onTc (τ := τ) (main (F := Ideal))) ⟨m, fun _ => 0, ρ⟩ fun r => ∀ c : Dev nD,
      r.2.mem ((c.tc : Thread nD τ).loc main_v4)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v4 (Pipeline.mem_restRefs_of main_v4 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (run_main m ρ)

end Cert.GatedNorm.KernValue

end
-- ==== Proof.lean ====
/-
  A gated root-mean-square normalisation with a rank-128 gate, as a Pallas kernel over 256-row blocks, against its jnp
  reference: for an input x : [4, 4096, 4096], W_down : [128, 4096] and W_up : [4096, 128],

    xn   = x · rsqrt (mean of x² over the last axis + 2⁻²³)
    gate = logistic (W_up · silu (W_down · xn))            (both contractions over the weights' LAST axes)
    out  = xn · gate.

  On the extended reals both programs compute, entry by entry, ONE function of their three arguments: entry (b, s, d)
  is the row formula `Cert.GatedNorm.gated` of row (b, s) (Proof/RowFormula.lean, `result`). No algebraic law is
  needed and the precondition (finite inputs) is never opened: the two sides differ only in layout and spelling.
  • The reference (Proof/RefRow.lean): its stages read at (b, s, ·) one operation at a time; its two logistic functions
    are spelt `1 / (1 + e^(-z))`, which is the logistic function's definition on the extended reals.
  • The kernel (Proof/KernelRow.lean, Proof/KernelValue.lean): the host flattens x to [16384, 4096] and transposes the
    weights; grid point t computes rows 256·t … 256·t + 255, its two matrix products accumulating into zero and its
    changes of float format the identity on the extended reals; the 64 blocks cover the rows; the host reshapes back.
  The three frames are the generated ones (the reference's is its generated run with the result dropped); the kernel's
  idealization rewrote no operation, so `preserves` is trivial.
-/
import proofs.«122722_j56023553409270_1_alg».proof.Defs
import proofs.«122722_j56023553409270_1_alg».proof.Proof.Gen.Kernel
import proofs.«122722_j56023553409270_1_alg».proof.Proof.Gen.Kernel.Skeleton
import proofs.«122722_j56023553409270_1_alg».proof.Proof.Gen.Kernel.Launch
import proofs.«122722_j56023553409270_1_alg».proof.Proof.Gen.Kernel.Points
import proofs.«122722_j56023553409270_1_alg».proof.Proof.Gen.Kernel.Frame
import proofs.«122722_j56023553409270_1_alg».proof.Proof.Gen.KernelIdeal
import proofs.«122722_j56023553409270_1_alg».proof.Proof.Gen.KernelIdeal.Skeleton
import proofs.«122722_j56023553409270_1_alg».proof.Proof.Gen.KernelIdeal.Launch
import proofs.«122722_j56023553409270_1_alg».proof.Proof.Gen.KernelIdeal.Points
import proofs.«122722_j56023553409270_1_alg».proof.Proof.Gen.KernelIdeal.Frame
import proofs.«122722_j56023553409270_1_alg».proof.Proof.Gen.ReferenceIdeal
import proofs.«122722_j56023553409270_1_alg».proof.Proof.Gen.ReferenceIdeal.Run
import proofs.«122722_j56023553409270_1_alg».proof.Proof.Gen.ReferenceIdeal.Read
import proofs.«122722_j56023553409270_1_alg».proof.Proof.Gen.Pre_finite_inputs
import proofs.«122722_j56023553409270_1_alg».proof.Proof.RowFormula
import proofs.«122722_j56023553409270_1_alg».proof.Proof.RefRow
import proofs.«122722_j56023553409270_1_alg».proof.Proof.KernelRow
import proofs.«122722_j56023553409270_1_alg».proof.Proof.KernelValue
import Idealize.ShloMosaic.Adequacy
import Idealize.ShloMosaic.Init

noncomputable section

namespace Cert.Proof

open Idealize.ShloMosaic Idealize.SL.Sem

/-- The word-level kernel terminates without a fault and keeps its arguments. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the result's value dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both runs end with the result at `result` of the (agreeing) arguments. -/
theorem algebraic : Cert.algebraic_KernelIdeal_ReferenceIdeal := by
  intro m ρ m' ρ' _ hagree
  refine ⟨_, Cert.GatedNorm.KernValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.GatedNorm.Ref.result_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
